-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 20
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v59 : BitVec 1 := Scalar.cmpi .eq arg1 c7_i32
  let v60 : BitVec 32 := Scalar.extui v59
  let c0_i32_32 : BitVec 32 := 0#32
  let v61 : BitVec 1 := Scalar.cmpi .ne v60 c0_i32_32
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S8192x512_S8192_d1 : S8192x512.ReducesTo [1] S8192
  h_S_ : 0 < S_.numel
  bcast_S8192_S8192x1_0 : S8192.BroadcastsInDim S8192x1 (![0] : Fin 1 → Fin S8192x1.rank)
  shapeCasts_S8192_S1x8192 : S8192.ShapeCasts S1x8192
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 86
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S512x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .i1⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x1, .i32⟩
  | .hbm, ⟨44, _⟩ => ⟨S1x8192, .i32⟩
  | .hbm, ⟨45, _⟩ => ⟨S8192x8192, .i32⟩
  | .hbm, ⟨46, _⟩ => ⟨S8192x8192, .i32⟩
  | .hbm, ⟨47, _⟩ => ⟨S8192x8192, .i1⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .i1⟩
  | .hbm, ⟨63, _⟩ => ⟨S_, .f32⟩
  | .hbm, ⟨64, _⟩ => ⟨S8192, .f32⟩
  | .hbm, ⟨65, _⟩ => ⟨S8192, .i1⟩
  | .hbm, ⟨66, _⟩ => ⟨S8192, .i1⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_call2_v0 : Ref sig .tc := ⟨.hbm, 49, rfl⟩
abbrev main_call2_v1 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_cst_10 : Ref sig .tc := ⟨.hbm, 54, rfl⟩
abbrev main_call3_v0 : Ref sig .tc := ⟨.hbm, 55, rfl⟩
abbrev main_call3_v1 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_cst_12 : Ref sig .tc := ⟨.hbm, 60, rfl⟩
abbrev main_v36 : Ref sig .tc := ⟨.hbm, 61, rfl⟩
abbrev main_v37 : Ref sig .tc := ⟨.hbm, 62, rfl⟩
abbrev main_cst_13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_14 : Ref sig .tc := ⟨.hbm, 67, rfl⟩
abbrev main_call4_v0 : Ref sig .tc := ⟨.hbm, 68, rfl⟩
abbrev main_call4_v1 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_call5_v0 : Ref sig .tc := ⟨.hbm, 73, rfl⟩
abbrev main_call5_v1 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_16 : Ref sig .tc := ⟨.hbm, 78, rfl⟩
abbrev main_call6_v0 : Ref sig .tc := ⟨.hbm, 79, rfl⟩
abbrev main_call6_v1 : Ref sig .tc := ⟨.hbm, 80, rfl⟩
abbrev main_v46 : Ref sig .tc := ⟨.hbm, 81, rfl⟩
abbrev main_cst_17 : Ref sig .tc := ⟨.hbm, 82, rfl⟩
abbrev main_v47 : Ref sig .tc := ⟨.hbm, 83, rfl⟩
abbrev main_cst_18 : Ref sig .tc := ⟨.hbm, 84, rfl⟩
abbrev main_v48 : Ref sig .tc := ⟨.hbm, 85, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x512 : S_.BroadcastsInDim S8192x512 (![] : Fin 0 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Spec.lean ====
/-
  The similarity loss both programs compute, as one function of the argument arrays, over plain indices.

  For embeddings T, M : 8192 × 512 and group ids g : 8192, with ‖·‖² the row sum of squares:
    sq r k    = (‖T r‖² + ‖M k‖²) − ∑ d, (2 · T r d) · M k d
    sim r k   = exp (−dist / 1),  dist = if max sq 0 > 0 then √(if max sq 0 > 0 then max sq 0 else 1) else 0
    num r     = ∑ k, if g r = g k then sim r k else 0        den r = ∑ k, if g r = g k then 0 else sim r k
    loss r    = if num > 0 ∧ den > 0 then −log (num / den) else 0   (with the guards written as the programs write them)
    total     = (∑ r, loss r) / 8192
  The reference computes exactly this. The kernel computes the squared distance as
  (‖T r‖² + ‖M k‖²) − 2 · ∑ d, T r d · M k d  and accumulates num and den over eight column blocks of 1024.
  The two squared distances agree when every entry is a real number (a factor moves across a finite sum of reals);
  the block accumulation agrees with the whole sum on all extended reals (addition there is commutative and associative).
-/
import Idealize.ShloMosaic.PureOps.Ideal
import Idealize.ShloMosaic.PureOps.Ideal.Laws
import Idealize.ShloMosaic.Lib.ValueIdx

noncomputable section

namespace Cert.SimSpec

open Idealize.ShloMosaic

/-- The float literals of both programs, as the extended reals their words denote. -/
abbrev zf : EReal := Ideal.ofBits .f32 0x00000000#32
abbrev onef : EReal := Ideal.ofBits .f32 0x3F800000#32
abbrev twof : EReal := Ideal.ofBits .f32 0x40000000#32
abbrev nf : EReal := Ideal.ofBits .f32 0x46000000#32

theorem zf_eq : zf = 0 := Ideal.ofBits_zero_f32

/-- The similarity exp(−dist) from a squared distance, with the clamp at zero and the guarded square root. -/
def simOf (sq : EReal) : EReal :=
  Ideal.exp (Ideal.div
    (-(Scalar.select (Ideal.cmp .ogt (max sq zf) zf)
        (Ideal.sqrt (Scalar.select (Ideal.cmp .ogt (max sq zf) zf) (max sq zf) onef)) zf))
    onef)

/-- A row's loss from its numerator and denominator. -/
def lossOf (num den : EReal) : EReal :=
  Scalar.select (IntOp.andi (Ideal.cmp .ogt num zf) (Ideal.cmp .ogt den zf))
    (-(Ideal.log (Scalar.select (IntOp.andi (Ideal.cmp .ogt num zf) (Ideal.cmp .ogt den zf))
        (Ideal.div num (Scalar.select (IntOp.andi (Ideal.cmp .ogt num zf) (Ideal.cmp .ogt den zf)) den onef)) onef)))
    zf

abbrev Mat := Fin 8192 → Fin 512 → EReal
abbrev Grp := Fin 8192 → BitVec 32

/-- A row's sum of squares, as the host sum reads: the initial zero plus the sum. -/
def rowSq (X : Mat) (r : Fin 8192) : EReal := zf + ∑ d : Fin 512, X r d * X r d

/-- The squared distance as the reference computes it: the doubled row of T against the row of M. -/
def sqd (T M : Mat) (r k : Fin 8192) : EReal :=
  (rowSq T r + rowSq M k) - ∑ d : Fin 512, (twof * T r d) * M k d

/-- The squared distance as the kernel computes it: twice the inner product. -/
def sqdK (T M : Mat) (r k : Fin 8192) : EReal :=
  (rowSq T r + rowSq M k) - twof * ∑ d : Fin 512, T r d * M k d

/-- The summand of the numerator (same group) and of the denominator (other group), from a similarity. -/
def numTerm (g : Grp) (r k : Fin 8192) (s : EReal) : EReal := Scalar.select (IntOp.cmpi .eq (g r) (g k)) s zf
def denTerm (g : Grp) (r k : Fin 8192) (s : EReal) : EReal := Scalar.select (IntOp.cmpi .eq (g r) (g k)) zf s

def numAt (T M : Mat) (g : Grp) (r : Fin 8192) : EReal :=
  zf + ∑ k : Fin 8192, numTerm g r k (simOf (sqd T M r k))
def denAt (T M : Mat) (g : Grp) (r : Fin 8192) : EReal :=
  zf + ∑ k : Fin 8192, denTerm g r k (simOf (sqd T M r k))

def lossAt (T M : Mat) (g : Grp) (r : Fin 8192) : EReal := lossOf (numAt T M g r) (denAt T M g r)

/-- The result: the mean loss. -/
def total (T M : Mat) (g : Grp) : EReal := Ideal.div (zf + ∑ r : Fin 8192, lossAt T M g r) nf

/-! ## The kernel's arrangement -/

/-- Column `q` of column block `b`. -/
def col (b : Fin 8) (q : Fin 1024) : Fin 8192 := ⟨b.val * 1024 + q.val, by have := b.isLt; have := q.isLt; omega⟩
/-- Row `p` of row block `a`. -/
def row (a : Fin 8) (p : Fin 1024) : Fin 8192 := ⟨a.val * 1024 + p.val, by have := a.isLt; have := p.isLt; omega⟩

/-- One column block's contribution to a row's numerator / denominator, from the kernel's squared distance. -/
def numPart (T M : Mat) (g : Grp) (r : Fin 8192) (b : ℕ) : EReal :=
  if h : b < 8 then ∑ q : Fin 1024, numTerm g r (col ⟨b, h⟩ q) (simOf (sqdK T M r (col ⟨b, h⟩ q))) else 0
def denPart (T M : Mat) (g : Grp) (r : Fin 8192) (b : ℕ) : EReal :=
  if h : b < 8 then ∑ q : Fin 1024, denTerm g r (col ⟨b, h⟩ q) (simOf (sqdK T M r (col ⟨b, h⟩ q))) else 0

/-- The accumulators after `n` column blocks: the initial zero plus the blocks' contributions so far. -/
def numAcc (T M : Mat) (g : Grp) (r : Fin 8192) (n : ℕ) : EReal := zf + ∑ b ∈ Finset.range n, numPart T M g r b
def denAcc (T M : Mat) (g : Grp) (r : Fin 8192) (n : ℕ) : EReal := zf + ∑ b ∈ Finset.range n, denPart T M g r b

theorem numAcc_succ (T M : Mat) (g : Grp) (r : Fin 8192) (n : ℕ) :
    numAcc T M g r (n + 1) = numAcc T M g r n + numPart T M g r n := by
  unfold numAcc; rw [Finset.sum_range_succ, add_assoc]
theorem denAcc_succ (T M : Mat) (g : Grp) (r : Fin 8192) (n : ℕ) :
    denAcc T M g r (n + 1) = denAcc T M g r n + denPart T M g r n := by
  unfold denAcc; rw [Finset.sum_range_succ, add_assoc]
theorem numAcc_one (T M : Mat) (g : Grp) (r : Fin 8192) :
    numAcc T M g r 1 = zf + numPart T M g r 0 := by
  unfold numAcc; rw [Finset.sum_range_one]
theorem denAcc_one (T M : Mat) (g : Grp) (r : Fin 8192) :
    denAcc T M g r 1 = zf + denPart T M g r 0 := by
  unfold denAcc; rw [Finset.sum_range_one]

/-- The kernel's loss of a row: from the accumulators after all eight blocks. -/
def lossK (T M : Mat) (g : Grp) (r : Fin 8192) : EReal := lossOf (numAcc T M g r 8) (denAcc T M g r 8)

/-- Every entry a real number. -/
def Finite (X : Mat) : Prop := ∀ r d, ∃ x : ℝ, X r d = (x : EReal)

end Cert.SimSpec

end
-- ==== Proof.SpecLaws.lean ====
/-
  The two laws that join the kernel's arrangement to the reference's, and two re-indexings of a total sum.
-/
import proofs.«179976_j4183298146522_1_alg».proof.Proof.Spec

noncomputable section

namespace Cert.SimSpec

open Idealize.ShloMosaic

/-! ## Auxiliary facts -/

/-- The word of the factor two denotes a real number. -/
theorem twof_real : ∃ c : ℝ, twof = (c : EReal) := by
  refine ⟨2, ?_⟩
  simp [Ideal.ofBits, Ideal.ieee, -EReal.coe_mul]; norm_num

/-- The coercion of the reals into the extended reals goes through a finite sum. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A column index is its block and its place in the block: `col` as a bijection. -/
def colEquiv : Fin 8 × Fin 1024 ≃ Fin 8192 where
  toFun p := col p.1 p.2
  invFun k := (⟨k.val / 1024, by have := k.isLt; omega⟩, ⟨k.val % 1024, by omega⟩)
  left_inv p := by
    obtain ⟨b, q⟩ := p
    have hb := b.isLt
    have hq := q.isLt
    refine Prod.ext (Fin.ext ?_) (Fin.ext ?_)
    · show (b.val * 1024 + q.val) / 1024 = b.val
      omega
    · show (b.val * 1024 + q.val) % 1024 = q.val
      omega
  right_inv k := by
    refine Fin.ext ?_
    show k.val / 1024 * 1024 + k.val % 1024 = k.val
    omega

/-- A sum over eight blocks of 1024 columns, block by block, is the sum over all 8192 columns. -/
theorem sum_blocks (f : Fin 8192 → EReal) :
    ∑ b ∈ Finset.range 8, (if h : b < 8 then ∑ q : Fin 1024, f (col ⟨b, h⟩ q) else 0) = ∑ k : Fin 8192, f k := by
  rw [Finset.sum_range, ← Equiv.sum_comp colEquiv f, Fintype.sum_prod_type]
  refine Finset.sum_congr rfl fun b _ => ?_
  rw [dif_pos b.isLt]
  exact Finset.sum_congr rfl fun q _ => rfl

/-- A length-8192 index is its one coordinate. -/
def idxEquiv1 : (⟨1, ![8192]⟩ : Shape).Idx ≃ Fin 8192 where
  toFun i := i 0
  invFun a := ValueIdx.ix1 a
  left_inv i := (ValueIdx.eq_ix1 i).symm
  right_inv _ := rfl

/-! ## The laws -/

/-- With real entries, twice an inner product is the inner product with one side doubled: the two squared distances agree. -/
theorem sqdK_eq_sqd (T M : Mat) (hT : Finite T) (hM : Finite M) (r k : Fin 8192) : sqdK T M r k = sqd T M r k := by
  choose t ht using hT
  choose m hm using hM
  obtain ⟨c, hc⟩ := twof_real
  unfold sqdK sqd
  congr 1
  rw [hc]
  simp only [ht, hm, ← EReal.coe_mul, ← coe_finsum]
  rw [Finset.mul_sum]
  simp only [mul_assoc]

/-- The numerator accumulated over eight column blocks of 1024 is the sum over all 8192 columns. -/
theorem numAcc_eight (T M : Mat) (g : Grp) (hT : Finite T) (hM : Finite M) (r : Fin 8192) :
    numAcc T M g r 8 = numAt T M g r := by
  unfold numAcc numAt
  congr 1
  have e : ∀ b, numPart T M g r b
      = if h : b < 8 then ∑ q : Fin 1024, numTerm g r (col ⟨b, h⟩ q) (simOf (sqd T M r (col ⟨b, h⟩ q))) else 0 := by
    intro b; unfold numPart; simp only [sqdK_eq_sqd T M hT hM]
  simp only [e]
  exact sum_blocks fun k => numTerm g r k (simOf (sqd T M r k))

theorem denAcc_eight (T M : Mat) (g : Grp) (hT : Finite T) (hM : Finite M) (r : Fin 8192) :
    denAcc T M g r 8 = denAt T M g r := by
  unfold denAcc denAt
  congr 1
  have e : ∀ b, denPart T M g r b
      = if h : b < 8 then ∑ q : Fin 1024, denTerm g r (col ⟨b, h⟩ q) (simOf (sqd T M r (col ⟨b, h⟩ q))) else 0 := by
    intro b; unfold denPart; simp only [sqdK_eq_sqd T M hT hM]
  simp only [e]
  exact sum_blocks fun k => denTerm g r k (simOf (sqd T M r k))

theorem lossK_eq (T M : Mat) (g : Grp) (hT : Finite T) (hM : Finite M) (r : Fin 8192) :
    lossK T M g r = lossAt T M g r := by
  unfold lossK lossAt; rw [numAcc_eight T M g hT hM, denAcc_eight T M g hT hM]

/-- A sum over the indices of an 8192 × 1 array is the sum over its rows. -/
theorem sum_col (L : (⟨2, ![8192, 1]⟩ : Shape).Idx → EReal) (f : Fin 8192 → EReal)
    (h : ∀ r : Fin 8192, L (ValueIdx.ix2 r (0 : Fin 1)) = f r) : ∑ i, L i = ∑ r, f r := by
  rw [ValueIdx.sum_idx2]
  refine Finset.sum_congr rfl fun r _ => ?_
  rw [Fin.sum_univ_one]
  exact h r

/-- A sum over the indices of a length-8192 array is the sum over its entries. -/
theorem sum_vec (L : (⟨1, ![8192]⟩ : Shape).Idx → EReal) (f : Fin 8192 → EReal)
    (h : ∀ r : Fin 8192, L (ValueIdx.ix1 r) = f r) : ∑ i, L i = ∑ r, f r := by
  rw [← Equiv.sum_comp idxEquiv1.symm L]
  exact Finset.sum_congr rfl fun r _ => h r

end Cert.SimSpec

end
-- ==== Proof.RefValue.lean ====
/-
  The reference's result, read one operation at a time, is the specification's mean loss of the argument arrays.
-/
import proofs.«179976_j4183298146522_1_alg».proof.Proof.Gen.ReferenceIdeal.Read
import proofs.«179976_j4183298146522_1_alg».proof.Proof.SpecLaws

noncomputable section

namespace Cert.ReferenceIdeal.RefValue

open Cert.ReferenceIdeal Cert.ReferenceIdeal.Gen Cert.ReferenceIdeal.Read Idealize.ShloMosaic

/-! ## Index equations: the composed index functions of the stages at an index given by its coordinates -/

theorem idx_v1 (r : Fin 8192) (d : Fin 512) : idx_main_v1 (ValueIdx.ix1 r) d = ValueIdx.ix2 r d :=
  funext fun a => Fin.ext (by match a with | ⟨0, _⟩ => rfl | ⟨1, _⟩ => rfl)
theorem idx_v4 (r : Fin 8192) (d : Fin 512) : idx_main_v4 (ValueIdx.ix1 r) d = ValueIdx.ix2 r d :=
  funext fun a => Fin.ext (by match a with | ⟨0, _⟩ => rfl | ⟨1, _⟩ => rfl)
theorem idx_v6 (r k : Fin 8192) : idx_main_v2 (idx_main_v6 (ValueIdx.ix2 r k)) = ValueIdx.ix1 r :=
  funext fun a => Fin.ext (by match a with | ⟨0, _⟩ => rfl)
theorem idx_v7 (r k : Fin 8192) : idx_main_v5 (idx_main_v7 (ValueIdx.ix2 r k)) = ValueIdx.ix1 k :=
  funext fun a => Fin.ext (by match a with | ⟨0, _⟩ => rfl)
theorem lidx_v12 (r k : Fin 8192) (d : Fin 512) : lidx_main_v12 (ValueIdx.ix2 r k) d = ValueIdx.ix2 r d :=
  funext fun a => Fin.ext (by match a with | ⟨0, _⟩ => rfl | ⟨1, _⟩ => rfl)
theorem ridx_v12 (r k : Fin 8192) (d : Fin 512) :
    idx_main_v11 (ridx_main_v12 (ValueIdx.ix2 r k) d) = ValueIdx.ix2 k d :=
  funext fun a => Fin.ext (by match a with | ⟨0, _⟩ => rfl | ⟨1, _⟩ => rfl)
theorem idx_v29 (r k : Fin 8192) : idx_main_v27 (idx_main_v29 (ValueIdx.ix2 r k)) = ValueIdx.ix1 r :=
  funext fun a => Fin.ext (by match a with | ⟨0, _⟩ => rfl)
theorem idx_v30 (r k : Fin 8192) : idx_main_v28 (idx_main_v30 (ValueIdx.ix2 r k)) = ValueIdx.ix1 k :=
  funext fun a => Fin.ext (by match a with | ⟨0, _⟩ => rfl)
theorem idx_v33 (r k : Fin 8192) : idx_main_v33 (ValueIdx.ix1 r) k = ValueIdx.ix2 r k :=
  funext fun a => Fin.ext (by match a with | ⟨0, _⟩ => rfl | ⟨1, _⟩ => rfl)
theorem idx_v35 (r k : Fin 8192) : idx_main_v35 (ValueIdx.ix1 r) k = ValueIdx.ix2 r k :=
  funext fun a => Fin.ext (by match a with | ⟨0, _⟩ => rfl | ⟨1, _⟩ => rfl)

/-! ## The row sums of squares -/

/-- The first row sum of squares at row `r`. -/
theorem v1_at (x0 : (⟨S8192x512, .f32⟩ : BufTy).Contents (Elt Ideal)) (r : Fin 8192) :
    val_main_v1 (F := Ideal) x0 (ValueIdx.ix1 r) = Cert.SimSpec.rowSq (fun r d => x0 (ValueIdx.ix2 r d)) r := by
  rw [val_main_v1_apply]
  unfold Cert.SimSpec.rowSq
  simp only [val_main_cst_apply, val_main_v0_apply, idx_v1, Ideal.ofBits_def, Ideal.mulf_def]

/-- The second row sum of squares at row `k`. -/
theorem v4_at (x1 : (⟨S8192x512, .f32⟩ : BufTy).Contents (Elt Ideal)) (k : Fin 8192) :
    val_main_v4 (F := Ideal) x1 (ValueIdx.ix1 k) = Cert.SimSpec.rowSq (fun r d => x1 (ValueIdx.ix2 r d)) k := by
  rw [val_main_v4_apply]
  unfold Cert.SimSpec.rowSq
  simp only [val_main_cst_0_apply, val_main_v3_apply, idx_v4, Ideal.ofBits_def, Ideal.mulf_def]

/-! ## The squared distance -/

/-- The sum of the two broadcast row sums at `(r, k)`. -/
theorem v8_at (x0 x1 : (⟨S8192x512, .f32⟩ : BufTy).Contents (Elt Ideal)) (r k : Fin 8192) :
    val_main_v8 (F := Ideal) x0 x1 (ValueIdx.ix2 r k)
      = Cert.SimSpec.rowSq (fun r d => x0 (ValueIdx.ix2 r d)) r + Cert.SimSpec.rowSq (fun r d => x1 (ValueIdx.ix2 r d)) k := by
  rw [val_main_v8_apply, val_main_v6_apply, val_main_v2_apply, val_main_v7_apply, val_main_v5_apply,
    idx_v6, idx_v7, v1_at, v4_at]
  rfl

/-- The contraction at `(r, k)`: the doubled row `r` of the first argument against row `k` of the second. -/
theorem v12_at (x0 x1 : (⟨S8192x512, .f32⟩ : BufTy).Contents (Elt Ideal)) (r k : Fin 8192) :
    val_main_v12 (F := Ideal) x0 x1 (ValueIdx.ix2 r k)
      = ∑ d : Fin 512, (Cert.SimSpec.twof * x0 (ValueIdx.ix2 r d)) * x1 (ValueIdx.ix2 k d) := by
  rw [val_main_v12_apply]
  refine Finset.sum_congr rfl fun d _ => ?_
  rw [val_main_v10_apply, val_main_v9_apply, val_main_cst_1_apply, val_main_v11_apply, lidx_v12, ridx_v12]
  rfl

/-- The squared distance at `(r, k)`. -/
theorem v13_at (x0 x1 : (⟨S8192x512, .f32⟩ : BufTy).Contents (Elt Ideal)) (r k : Fin 8192) :
    val_main_v13 (F := Ideal) x0 x1 (ValueIdx.ix2 r k)
      = Cert.SimSpec.sqd (fun r d => x0 (ValueIdx.ix2 r d)) (fun r d => x1 (ValueIdx.ix2 r d)) r k := by
  rw [val_main_v13_apply, v8_at, v12_at]
  rfl

/-! ## The similarity -/

/-- The similarity at any index is the specification's function of the squared distance there: every stage between
    is pointwise, and each broadcast scalar is its literal. -/
theorem v26_of_v13 (x0 x1 : (⟨S8192x512, .f32⟩ : BufTy).Contents (Elt Ideal)) (j : S8192x8192.Idx) :
    val_main_v26 (F := Ideal) x0 x1 j = Cert.SimSpec.simOf (val_main_v13 (F := Ideal) x0 x1 j) := by
  rw [val_main_v26_apply, val_main_v25_apply, val_main_v24_apply, val_main_cst_7_apply, val_main_v23_apply,
    val_main_v22_apply, val_main_v20_apply, val_main_v19_apply, val_main_cst_5_apply, val_main_v21_apply,
    val_main_v18_apply, val_main_v17_apply, val_main_v16_apply, val_main_cst_3_apply, val_main_v15_apply,
    val_main_v14_apply, val_main_cst_2_apply, val_main_call0_v1_apply, val_main_call0_v0_apply,
    val_main_cst_4_apply, val_main_call1_v1_apply, val_main_call1_v0_apply, val_main_cst_6_apply]
  rfl

theorem v26_at (x0 x1 : (⟨S8192x512, .f32⟩ : BufTy).Contents (Elt Ideal)) (r k : Fin 8192) :
    val_main_v26 (F := Ideal) x0 x1 (ValueIdx.ix2 r k)
      = Cert.SimSpec.simOf (Cert.SimSpec.sqd (fun r d => x0 (ValueIdx.ix2 r d)) (fun r d => x1 (ValueIdx.ix2 r d)) r k) := by
  rw [v26_of_v13, v13_at]

/-! ## The group comparison and the two masked similarities -/

/-- The comparison of the two broadcasts of the group ids at `(r, k)`. -/
theorem v31_at (x2 : (⟨S8192, .i32⟩ : BufTy).Contents (Elt Ideal)) (r k : Fin 8192) :
    val_main_v31 (F := Ideal) x2 (ValueIdx.ix2 r k)
      = IntOp.cmpi .eq (x2 (ValueIdx.ix1 r)) (x2 (ValueIdx.ix1 k)) := by
  rw [val_main_v31_apply, val_main_v29_apply, val_main_v27_apply, val_main_v30_apply, val_main_v28_apply,
    idx_v29, idx_v30]

/-- The numerator's summand at `(r, k)`. -/
theorem v32_at (x0 x1 : (⟨S8192x512, .f32⟩ : BufTy).Contents (Elt Ideal)) (x2 : (⟨S8192, .i32⟩ : BufTy).Contents (Elt Ideal))
    (r k : Fin 8192) :
    val_main_v32 (F := Ideal) x0 x1 x2 (ValueIdx.ix2 r k)
      = Cert.SimSpec.numTerm (fun r => x2 (ValueIdx.ix1 r)) r k
          (Cert.SimSpec.simOf (Cert.SimSpec.sqd (fun r d => x0 (ValueIdx.ix2 r d)) (fun r d => x1 (ValueIdx.ix2 r d)) r k)) := by
  rw [val_main_v32_apply, v31_at, v26_at, val_main_call2_v1_apply, val_main_call2_v0_apply, val_main_cst_8_apply]
  rfl

/-- The denominator's summand at `(r, k)`. -/
theorem v34_at (x0 x1 : (⟨S8192x512, .f32⟩ : BufTy).Contents (Elt Ideal)) (x2 : (⟨S8192, .i32⟩ : BufTy).Contents (Elt Ideal))
    (r k : Fin 8192) :
    val_main_v34 (F := Ideal) x0 x1 x2 (ValueIdx.ix2 r k)
      = Cert.SimSpec.denTerm (fun r => x2 (ValueIdx.ix1 r)) r k
          (Cert.SimSpec.simOf (Cert.SimSpec.sqd (fun r d => x0 (ValueIdx.ix2 r d)) (fun r d => x1 (ValueIdx.ix2 r d)) r k)) := by
  rw [val_main_v34_apply, v31_at, v26_at, val_main_call3_v1_apply, val_main_call3_v0_apply, val_main_cst_10_apply]
  rfl

/-! ## The row sums: numerator and denominator -/

theorem v33_at (x0 x1 : (⟨S8192x512, .f32⟩ : BufTy).Contents (Elt Ideal)) (x2 : (⟨S8192, .i32⟩ : BufTy).Contents (Elt Ideal))
    (r : Fin 8192) :
    val_main_v33 (F := Ideal) x0 x1 x2 (ValueIdx.ix1 r)
      = Cert.SimSpec.numAt (fun r d => x0 (ValueIdx.ix2 r d)) (fun r d => x1 (ValueIdx.ix2 r d)) (fun r => x2 (ValueIdx.ix1 r)) r := by
  rw [val_main_v33_apply, val_main_cst_9_apply]
  unfold Cert.SimSpec.numAt
  refine congrArg (_ + ·) (Finset.sum_congr rfl fun k _ => ?_)
  rw [idx_v33, v32_at]

theorem v35_at (x0 x1 : (⟨S8192x512, .f32⟩ : BufTy).Contents (Elt Ideal)) (x2 : (⟨S8192, .i32⟩ : BufTy).Contents (Elt Ideal))
    (r : Fin 8192) :
    val_main_v35 (F := Ideal) x0 x1 x2 (ValueIdx.ix1 r)
      = Cert.SimSpec.denAt (fun r d => x0 (ValueIdx.ix2 r d)) (fun r d => x1 (ValueIdx.ix2 r d)) (fun r => x2 (ValueIdx.ix1 r)) r := by
  rw [val_main_v35_apply, val_main_cst_11_apply]
  unfold Cert.SimSpec.denAt
  refine congrArg (_ + ·) (Finset.sum_congr rfl fun k _ => ?_)
  rw [idx_v35, v34_at]

/-! ## A row's loss and the mean -/

/-- The guarded loss at any index is the specification's function of the numerator and denominator there. -/
theorem v46_of (x0 x1 : (⟨S8192x512, .f32⟩ : BufTy).Contents (Elt Ideal)) (x2 : (⟨S8192, .i32⟩ : BufTy).Contents (Elt Ideal))
    (j : S8192.Idx) :
    val_main_v46 (F := Ideal) x0 x1 x2 j
      = Cert.SimSpec.lossOf (val_main_v33 (F := Ideal) x0 x1 x2 j) (val_main_v35 (F := Ideal) x0 x1 x2 j) := by
  rw [val_main_v46_apply, val_main_v45_apply, val_main_v44_apply, val_main_v43_apply, val_main_v42_apply,
    val_main_v41_apply, val_main_v40_apply, val_main_v37_apply, val_main_v39_apply, val_main_v36_apply,
    val_main_cst_12_apply, val_main_v38_apply, val_main_cst_13_apply, val_main_call4_v1_apply,
    val_main_call4_v0_apply, val_main_cst_14_apply, val_main_call5_v1_apply, val_main_call5_v0_apply,
    val_main_cst_15_apply, val_main_call6_v1_apply, val_main_call6_v0_apply, val_main_cst_16_apply]
  rfl

theorem v46_at (x0 x1 : (⟨S8192x512, .f32⟩ : BufTy).Contents (Elt Ideal)) (x2 : (⟨S8192, .i32⟩ : BufTy).Contents (Elt Ideal))
    (r : Fin 8192) :
    val_main_v46 (F := Ideal) x0 x1 x2 (ValueIdx.ix1 r)
      = Cert.SimSpec.lossAt (fun r d => x0 (ValueIdx.ix2 r d)) (fun r d => x1 (ValueIdx.ix2 r d)) (fun r => x2 (ValueIdx.ix1 r)) r := by
  rw [v46_of, v33_at, v35_at]
  rfl

/-! ## The result -/

theorem ref_total (x0 x1 : (⟨S8192x512, .f32⟩ : BufTy).Contents (Elt Ideal)) (x2 : (⟨S8192, .i32⟩ : BufTy).Contents (Elt Ideal))
    (i : S_.Idx) :
    val_main_v48 (F := Ideal) x0 x1 x2 i
      = Cert.SimSpec.total (fun r d => x0 (ValueIdx.ix2 r d)) (fun r d => x1 (ValueIdx.ix2 r d)) (fun r => x2 (ValueIdx.ix1 r)) := by
  rw [val_main_v48_apply, val_main_v47_apply, val_main_cst_17_apply, val_main_cst_18_apply,
    Cert.SimSpec.sum_vec _ _ (v46_at x0 x1 x2)]
  rfl

end Cert.ReferenceIdeal.RefValue

end
-- ==== Proof.Finite.lean ====
/-
  The precondition, all ones, says every entry of both embedding arrays is a real number.
-/
import proofs.«179976_j4183298146522_1_alg».proof.Pre_finite_inputs
import proofs.«179976_j4183298146522_1_alg».proof.Proof.Gen.Pre_finite_inputs
import proofs.«179976_j4183298146522_1_alg».proof.Proof.Spec
import Idealize.ShloMosaic.Lib.ReduceAll

noncomputable section

namespace Cert.Pre_finite_inputs.Reals

open Cert.Pre_finite_inputs Idealize.ShloMosaic

local instance subsingleton_S_ : Subsingleton S_.Idx := ⟨fun a b => funext fun d => d.elim0⟩

/-- An extended real whose absolute value max a (-a) lies strictly below +∞ is a real number. -/
theorem real_of_abs_lt_top (a : EReal) (h : max a (-a) < ⊤) : ∃ x : ℝ, a = (x : EReal) := by
  induction a using EReal.rec with
  | bot => simp at h
  | coe x => exact ⟨x, rfl⟩
  | top => simp at h

/-- The ordered less-than comparison answers 1 only where the strict inequality holds. -/
theorem lt_of_cmp_olt (a b : EReal) (h : Ideal.cmp .olt a b = 1#1) : a < b := by
  unfold Ideal.cmp at h
  by_contra hn
  simp [hn] at h

/-- The word 0x7F800000 denotes +∞. -/
theorem ofBits_inf : Ideal.ofBits .f32 0x7F800000#32 = (⊤ : EReal) := by simp [Ideal.ofBits, Ideal.ieee]

/-- One element of the compared array: |a| < +∞ answered 1, so a is a real number. -/
theorem real_of_elem (a : EReal)
    (h : Ideal.cmp .olt (max a (-a)) (Ideal.ofBits .f32 0x7F800000#32) = 1#1) : ∃ x : ℝ, a = (x : EReal) := by
  rw [ofBits_inf] at h
  exact real_of_abs_lt_top a (lt_of_cmp_olt _ _ h)

theorem finite_of_pre (x0 x1 : FVec Ideal S8192x512 .f32) (x2 : IVec S8192 32)
    (h : Cert.Pre_finite_inputs.fn (F := Ideal) x0 x1 x2 = fun _ => 1#1) :
    Cert.SimSpec.Finite (fun r d => x0 (ValueIdx.ix2 r d)) ∧ Cert.SimSpec.Finite (fun r d => x1 (ValueIdx.ix2 r d)) := by
  have h0 := congrFun h ValueIdx.ix0
  dsimp only [Cert.Pre_finite_inputs.fn] at h0
  -- the final and of the two reductions, at the one index of the result
  obtain ⟨ha, hb⟩ := IntOp.andi_eq_one.1 h0
  refine ⟨fun r d => ?_, fun r d => ?_⟩
  · -- every element of the first compared array is 1
    have e := Host.reduce_andi_all _ _ _ _ ValueIdx.ix0 ha (ValueIdx.ix2 r d)
    exact real_of_elem (x0 (ValueIdx.ix2 r d)) e
  · have e := Host.reduce_andi_all _ _ _ _ ValueIdx.ix0 hb (ValueIdx.ix2 r d)
    exact real_of_elem (x1 (ValueIdx.ix2 r d)) e

end Cert.Pre_finite_inputs.Reals

end
-- ==== Proof.KPieces.lean ====
/-
  What each control case of the body leaves in the two carried accumulators and in the output block, as the body's
  stored values of the blocks it loads. Case A (first column block): the accumulators are reset to zero and then
  updated. Case B (middle column blocks): updated from what the point before left. Case C (last column block):
  updated, and the output block is the finalisation of the two updated accumulators.
-/
import proofs.«179976_j4183298146522_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The similarity tile and the group-id column of a point's loaded blocks. -/
abbrev simTile (x0 x1 : Vec F S1024x512 .bf16) (x2 : Vec F S1024x1 .f32) (x3 : Vec F S1x1024 .f32) : FVec F S1024x1024 .f32 :=
  k0_pay7 x0 x1 x2 x3

theorem sA0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x512 .bf16) (x1 : Vec F S1024x512 .bf16) (x2 : Vec F S1024x1 .f32) (x3 : Vec F S1x1024 .f32) (x4 : Vec F S1024x1 .i32) (x5 : Vec F S1x1024 .i32) :
    sout0_A_0 c i arg2 harg2 arg3 harg3 arg4 harg4 arg5 harg5 arg6 harg6 arg7 harg7 arg8 harg8 arg9 harg9 arg10 harg10 hc0 hc1 x0 x1 x2 x3 x4 x5 = k0_pay2 (k0_pay7 x0 x1 x2 x3) (k0_pay8 x4) x5 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S1024x1) hz, View.ld_unit_zero (S := S1x1024) hz, View.readCov_unit_zero (S := S1024x1) _ hz]

theorem sA1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x512 .bf16) (x1 : Vec F S1024x512 .bf16) (x2 : Vec F S1024x1 .f32) (x3 : Vec F S1x1024 .f32) (x4 : Vec F S1024x1 .i32) (x5 : Vec F S1x1024 .i32) :
    sout0_A_1 c i arg2 harg2 arg3 harg3 arg4 harg4 arg5 harg5 arg6 harg6 arg7 harg7 arg8 harg8 arg9 harg9 arg10 harg10 hc0 hc1 x0 x1 x2 x3 x4 x5 = k0_pay3 (k0_pay7 x0 x1 x2 x3) (k0_pay8 x4) x5 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S1024x1) hz, View.ld_unit_zero (S := S1x1024) hz, View.readCov_unit_zero (S := S1024x1) _ hz]

theorem sB0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay2 (k0_pay7 x0 x1 x2 x3) (k0_pay8 x4) x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S1024x1) hz, View.ld_unit_zero (S := S1x1024) hz, View.readCov_unit_zero (S := S1024x1) _ hz]

theorem sB1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay3 (k0_pay7 x0 x1 x2 x3) (k0_pay8 x4) x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S1024x1) hz, View.ld_unit_zero (S := S1x1024) hz, View.readCov_unit_zero (S := S1024x1) _ hz]

theorem sC0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay2 (k0_pay7 x0 x1 x2 x3) (k0_pay8 x4) x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S1024x1) hz, View.ld_unit_zero (S := S1x1024) hz, View.readCov_unit_zero (S := S1024x1) _ hz]

theorem sC1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay3 (k0_pay7 x0 x1 x2 x3) (k0_pay8 x4) x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S1024x1) hz, View.ld_unit_zero (S := S1x1024) hz, View.readCov_unit_zero (S := S1024x1) _ hz]

theorem oC6 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay4 (k0_pay2 (k0_pay7 x0 x1 x2 x3) (k0_pay8 x4) x5 xs0) (k0_pay3 (k0_pay7 x0 x1 x2 x3) (k0_pay8 x4) x5 xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S1024x1) hz, View.ld_unit_zero (S := S1x1024) hz, View.readCov_unit_zero (S := S1024x1) _ hz]

end Cert.KernelIdeal.Pieces

end
-- ==== Proof.KPay.lean ====
/-
  The kernel body's stored values, read at an index over the extended reals.
-/
import proofs.«179976_j4183298146522_1_alg».proof.Proof.Gen.KernelIdeal.Skeleton
import proofs.«179976_j4183298146522_1_alg».proof.Proof.Spec
import Idealize.ShloMosaic.Lib.Pipeline.Value
import Idealize.ShloMosaic.Lib.ValueLayout

noncomputable section

namespace Cert.KernelIdeal.Pay

open Cert.KernelIdeal Cert.KernelIdeal.Gen Idealize.ShloMosaic ValueIdx Cert.SimSpec

/-! ## Small facts the payloads lean on -/

/-- The kernel writes a negation as zero minus the value. -/
theorem zsub (x : EReal) : zf - x = -x := by rw [zf_eq, zero_sub]

/-- A column block broadcast along the second axis reads, at (p, q), the column's entry at p. -/
theorem broadcastTo_col_apply {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : ℕ) = 1 then 0 else p.val
    rw [if_neg (by decide)]
  | ⟨1, _⟩ => rfl

/-- A vector of 1024 entries cast to a column reads, at (p, u), the vector's entry at p. -/
theorem shapeCast_vec_col_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the second axis of a 1024 × 1024 block, read at row p, is the sum of that row's entries. -/
theorem rowSum_apply (src : FVec Ideal S1024x1024 .f32) (acc : BitVec 32) (h : S1024x1024.Reduces [1] S1024)
    (hφ : FKind.Formats .f32) (hacc : acc = FKind.add.neutral .f32 hφ) (p : Fin 1024) :
    multiReduction (F := Ideal) .add [1] S1024 src acc h hφ hacc (ix1 p) = ∑ q : Fin 1024, src (ix2 p q) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

/-- The group comparison at (p, q): the row's group id at p against the column's group id at q. -/
theorem pay1_apply (v35 : IVec S1024x1 32) (v36 : Vec Ideal S1x1024 .i32) (p q : Fin 1024) :
    k0_pay1 (F := Ideal) v35 v36 (ix2 p q) = IntOp.cmpi .eq (v35 (ix2 p (0 : Fin 1))) (v36 (ix2 (0 : Fin 1) q)) := by
  unfold k0_pay1
  simp only [shapeCast_self]
  show IntOp.cmpi .eq (broadcastTo S1024x1024 v35 _ (ix2 p q)) (broadcastTo S1024x1024 v36 _ (ix2 p q)) = _
  rw [broadcastTo_col_apply, broadcastTo_1b_ab_apply]

/-! The matrix product of the kernel contracts the second axis of both operands: at output (p, q) the left operand is
    read at (p, k) and the right operand at (q, k). -/
theorem lhs_mm_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_mm_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_mm_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_mm_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product into the zero block, read at (p, q): the inner product of row p of the left operand with row q of the
    right operand. -/
theorem mm_apply (y0 y1 : FVec Ideal S1024x512 .bf16) (p q : Fin 1024) :
    matmul dot_S1024x512_S1024x512_S1024x1024_1_1_0_0_n_n none y0 y1 (constant S1024x1024 .f32 0x00000000#32) (ix2 p q)
      = ∑ d : Fin 512, y0 (ix2 p d) * y1 (ix2 q d) := by
  refine (Ideal.matmul_constant_zero_apply dot_S1024x512_S1024x512_S1024x1024_1_1_0_0_n_n none y0 y1 (ix2 p q)).trans ?_
  rw [← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-- The squared distance the kernel forms, read at (p, q): the row norm at p plus the column norm at q, minus twice the
    inner product. -/
theorem sq_apply (x0 x1 : FVec Ideal S1024x512 .bf16) (x2 : FVec Ideal S1024x1 .f32) (x3 : FVec Ideal S1x1024 .f32)
    (h2 : S1024x1.Broadcasts S1024x1024) (h3 : S1x1024.Broadcasts S1024x1024) (p q : Fin 1024) :
    subf (addf (broadcastTo S1024x1024 x2 h2) (broadcastTo S1024x1024 x3 h3))
        (mulf (broadcast S1024x1024 (Scalar.ofBits (F := Ideal) .f32 0x40000000#32))
          (matmul dot_S1024x512_S1024x512_S1024x1024_1_1_0_0_n_n none x0 x1 (constant S1024x1024 .f32 0x00000000#32))) (ix2 p q)
      = (x2 (ix2 p (0 : Fin 1)) + x3 (ix2 (0 : Fin 1) q)) - twof * ∑ d : Fin 512, x0 (ix2 p d) * x1 (ix2 q d) := by
  show (broadcastTo S1024x1024 x2 h2 (ix2 p q) + broadcastTo S1024x1024 x3 h3 (ix2 p q))
      - twof * matmul dot_S1024x512_S1024x512_S1024x1024_1_1_0_0_n_n none x0 x1 (constant S1024x1024 .f32 0x00000000#32) (ix2 p q) = _
  rw [broadcastTo_col_apply, broadcastTo_1b_ab_apply, mm_apply]

/-- The kernel's chain from a squared distance to a similarity is the specification's, with the negation written as
    zero minus the value. -/
theorem simK_eq (s : EReal) :
    Ideal.exp (Ideal.div
      (zf - Scalar.select (Ideal.cmp .ogt (max s zf) zf)
        (Ideal.sqrt (Scalar.select (Ideal.cmp .ogt (max s zf) zf) (max s zf) onef)) zf) onef) = simOf s := by
  unfold simOf
  rw [zsub]

/-! ## The payloads at an index -/

/-- The similarity tile: at (p, q) the similarity of the squared distance the kernel forms from the row norm at p,
    the column norm at q and twice the inner product of row p of the text block with row q of the image block. -/
theorem pay7_apply (x0 x1 : Vec Ideal S1024x512 .bf16) (x2 : Vec Ideal S1024x1 .f32) (x3 : Vec Ideal S1x1024 .f32)
    (p q : Fin 1024) :
    k0_pay7 (F := Ideal) x0 x1 x2 x3 (ix2 p q)
      = simOf ((x2 (ix2 p (0 : Fin 1)) + x3 (ix2 (0 : Fin 1) q)) - twof * ∑ d : Fin 512, x0 (ix2 p d) * x1 (ix2 q d)) := by
  unfold k0_pay7
  simp only [shapeCast_self]
  -- every operation after the squared distance is pointwise: the value is the kernel's chain at the squared distance
  refine Eq.trans ?_ (congrArg simOf (sq_apply x0 x1 x2 x3 broadcasts_S1024x1_S1024x1024 broadcasts_S1x1024_S1024x1024 p q))
  refine Eq.trans ?_ (simK_eq _)
  rfl

/-- The numerator's update: the carried value plus the row sum of the same-group similarities of this tile. -/
theorem pay2_apply (v33 : FVec Ideal S1024x1024 .f32) (v35 : IVec S1024x1 32) (v36 : Vec Ideal S1x1024 .i32)
    (v49 : Vec Ideal S1024x1 .f32) (p : Fin 1024) :
    k0_pay2 (F := Ideal) v33 v35 v36 v49 (ix2 p (0 : Fin 1))
      = v49 (ix2 p (0 : Fin 1))
        + ∑ q : Fin 1024, Scalar.select (IntOp.cmpi .eq (v35 (ix2 p (0 : Fin 1))) (v36 (ix2 (0 : Fin 1) q))) (v33 (ix2 p q)) zf := by
  unfold k0_pay2
  simp only [shapeCast_self]
  show v49 (ix2 p (0 : Fin 1)) + shapeCast S1024x1 _ _ (ix2 p (0 : Fin 1)) = _
  refine congrArg (fun t => v49 (ix2 p (0 : Fin 1)) + t) ?_
  refine (shapeCast_vec_col_apply _ _ p 0).trans ?_
  refine (rowSum_apply _ _ _ _ _ p).trans ?_
  refine Finset.sum_congr rfl fun q _ => ?_
  show Scalar.select (k0_pay1 (F := Ideal) v35 v36 (ix2 p q)) (v33 (ix2 p q)) zf = _
  rw [pay1_apply]

/-- The denominator's update: the carried value plus the row sum of the other-group similarities of this tile. -/
theorem pay3_apply (v33 : FVec Ideal S1024x1024 .f32) (v35 : IVec S1024x1 32) (v36 : Vec Ideal S1x1024 .i32)
    (v54 : Vec Ideal S1024x1 .f32) (p : Fin 1024) :
    k0_pay3 (F := Ideal) v33 v35 v36 v54 (ix2 p (0 : Fin 1))
      = v54 (ix2 p (0 : Fin 1))
        + ∑ q : Fin 1024, Scalar.select (IntOp.cmpi .eq (v35 (ix2 p (0 : Fin 1))) (v36 (ix2 (0 : Fin 1) q))) zf (v33 (ix2 p q)) := by
  unfold k0_pay3
  simp only [shapeCast_self]
  show v54 (ix2 p (0 : Fin 1)) + shapeCast S1024x1 _ _ (ix2 p (0 : Fin 1)) = _
  refine congrArg (fun t => v54 (ix2 p (0 : Fin 1)) + t) ?_
  refine (shapeCast_vec_col_apply _ _ p 0).trans ?_
  refine (rowSum_apply _ _ _ _ _ p).trans ?_
  refine Finset.sum_congr rfl fun q _ => ?_
  show Scalar.select (k0_pay1 (F := Ideal) v35 v36 (ix2 p q)) zf (v33 (ix2 p q)) = _
  rw [pay1_apply]

/-- The finalisation: a row's loss from its numerator and denominator. -/
theorem pay4_apply (v62 v63 : Vec Ideal S1024x1 .f32) (p : Fin 1024) :
    k0_pay4 (F := Ideal) v62 v63 (ix2 p (0 : Fin 1)) = lossOf (v62 (ix2 p (0 : Fin 1))) (v63 (ix2 p (0 : Fin 1))) := by
  unfold k0_pay4 lossOf
  show Scalar.select _ (zf - Ideal.log _) zf = Scalar.select _ (-(Ideal.log _)) zf
  rw [zsub]
  rfl

/-- The reset stores zero. -/
theorem pay5_apply (p : Fin 1024) : k0_pay5 (F := Ideal) (ix2 p (0 : Fin 1)) = zf := by
  unfold k0_pay5
  simp only [shapeCast_self]
  rfl
theorem pay6_apply (p : Fin 1024) : k0_pay6 (F := Ideal) (ix2 p (0 : Fin 1)) = zf := by
  unfold k0_pay6
  simp only [shapeCast_self]
  rfl

/-- The group-id column block passes through its shape cast unchanged. -/
theorem pay8_eq (v34 : Vec Ideal S1024x1 .i32) : k0_pay8 (F := Ideal) v34 = v34 := by
  unfold k0_pay8
  exact shapeCast_self v34 _

end Cert.KernelIdeal.Pay

end
-- ==== Proof.KNames.lean ====
/-
  Names shared by the kernel-side modules: at grid point t = 8·a + b (row block a, column block b) the six input
  blocks under their literal vector types, and the row and column block of a point.
-/
import proofs.«179976_j4183298146522_1_alg».proof.Proof.Gen.KernelIdeal.Frame
import proofs.«179976_j4183298146522_1_alg».proof.Proof.Spec

noncomputable section

namespace Cert.KernelIdeal.Names

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The row block of a grid point. -/
def rb (t : Fin cfg0.N) : Fin 8 := ⟨t.val / 8, by have h := t.isLt; have hN : cfg0.N = 64 := N_0; omega⟩
/-- The column block of a grid point. -/
def cb (t : Fin cfg0.N) : Fin 8 := ⟨t.val % 8, Nat.mod_lt _ (by decide)⟩

/-- The text rows of the point's row block, the image rows of its column block, the two norms, the two group-id blocks. -/
abbrev tblk (c : Dev nD) (t : Fin cfg0.N) : Vec F S1024x512 .bf16 := iblk m c 0 t
abbrev mblk (c : Dev nD) (t : Fin cfg0.N) : Vec F S1024x512 .bf16 := iblk m c 1 t
abbrev tnblk (c : Dev nD) (t : Fin cfg0.N) : Vec F S1024x1 .f32 := iblk m c 2 t
abbrev mnblk (c : Dev nD) (t : Fin cfg0.N) : Vec F S1x1024 .f32 := iblk m c 3 t
abbrev gcblk (c : Dev nD) (t : Fin cfg0.N) : Vec F S1024x1 .i32 := iblk m c 4 t
abbrev grblk (c : Dev nD) (t : Fin cfg0.N) : Vec F S1x1024 .i32 := iblk m c 5 t

/-- The arguments as matrices over plain indices. -/
abbrev Tm (c : Dev nD) : Fin 8192 → Fin 512 → F .f32 := fun r d => m ((c : Thread nD τ).loc main_arg0) (ValueIdx.ix2 r d)
abbrev Mm (c : Dev nD) : Fin 8192 → Fin 512 → F .f32 := fun r d => m ((c : Thread nD τ).loc main_arg1) (ValueIdx.ix2 r d)
abbrev gm (c : Dev nD) : Fin 8192 → BitVec 32 := fun r => m ((c : Thread nD τ).loc main_arg2) (ValueIdx.ix1 r)

end Cert.KernelIdeal.Names

end
-- ==== Proof.KHost.lean ====
/-
  What the region finds in its windows: at grid point t each input block, read at an index, in terms of the argument arrays.
-/
import proofs.«179976_j4183298146522_1_alg».proof.Proof.KNames
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.HostPre

open Cert.KernelIdeal Cert.KernelIdeal.Gen Cert.KernelIdeal.Names Idealize.ShloMosaic Idealize.ShloMosaic.TcCoe Idealize.SL.Sem ValueIdx Cert.SimSpec

variable (m : (ℓ : Loc nD τ sig) → Buf (Elt Ideal) ℓ)

/-! ## The staged arrays, read at an index in terms of the arguments -/

/-- The host's sum along a row from the initial zero, read at a row: the zero plus the sum over the row. -/
theorem hostRowSum_apply (y : (⟨S8192x512, .f32⟩ : BufTy).Contents (Elt Ideal)) (r : Fin 8192) :
    Host.reduceAdd y (constant (F := Ideal) S_ .f32 0x00000000#32) reducesTo_S8192x512_S8192_d1 h_S_ (ix1 r)
      = zf + ∑ d : Fin 512, y (ix2 r d) := by
  simp only [Host.reduceAdd, Ideal.hostReduceAdd_def]
  rw [Ideal.hostReduceAdd_single reducesTo_S8192x512_S8192_d1 (by decide)]
  refine congrArg (_ + ·) (Finset.sum_congr rfl fun k _ => ?_)
  exact congrArg y (funext fun a => Fin.ext (by match a with | ⟨0, _⟩ => rfl | ⟨1, _⟩ => rfl))

/-- The staged text array is the text argument (the narrowing cast is the identity on extended reals). -/
theorem V_v0_apply (c : Dev nD) (r : Fin 8192) (d : Fin 512) : V m c main_v0 (ix2 r d) = Tm m c r d := by
  have e : (V m c main_v0 : S8192x512.Idx → EReal) = fun i => m ((c : Thread nD τ).loc main_arg0) i := by
    show StableHlo.after hostOps0 (fun b => m (c, b)) (Proc.devRef .tc main_v0) = _
    after_results
    rfl
  exact congrFun e (ix2 r d)

/-- The staged image array is the image argument. -/
theorem V_v1_apply (c : Dev nD) (r : Fin 8192) (d : Fin 512) : V m c main_v1 (ix2 r d) = Mm m c r d := by
  have e : (V m c main_v1 : S8192x512.Idx → EReal) = fun i => m ((c : Thread nD τ).loc main_arg1) i := by
    show StableHlo.after hostOps0 (fun b => m (c, b)) (Proc.devRef .tc main_v1) = _
    after_results
    rfl
  exact congrFun e (ix2 r d)

/-- The staged column of text norms: at row r the row sum of squares of the text argument. -/
theorem V_v4_apply (c : Dev nD) (r : Fin 8192) : V m c main_v4 (ix2 r (0 : Fin 1)) = rowSq (Tm m c) r := by
  have e : (V m c main_v4 : S8192x1.Idx → EReal)
      = broadcastInDim S8192x1 ![0] bcast_S8192_S8192x1_0
          (Host.reduceAdd (mulf (m ((c : Thread nD τ).loc main_arg0)) (m ((c : Thread nD τ).loc main_arg0)))
            (constant (F := Ideal) S_ .f32 0x00000000#32) reducesTo_S8192x512_S8192_d1 h_S_) := by
    show StableHlo.after hostOps0 (fun b => m (c, b)) (Proc.devRef .tc main_v4) = _
    after_results
  refine (congrFun e (ix2 r (0 : Fin 1))).trans ?_
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  exact hostRowSum_apply _ r

/-- The staged row of image norms: at column k the row sum of squares of row k of the image argument. -/
theorem V_v7_apply (c : Dev nD) (k : Fin 8192) : V m c main_v7 (ix2 (0 : Fin 1) k) = rowSq (Mm m c) k := by
  have e : (V m c main_v7 : S1x8192.Idx → EReal)
      = shapeCast S1x8192
          (Host.reduceAdd (mulf (m ((c : Thread nD τ).loc main_arg1)) (m ((c : Thread nD τ).loc main_arg1)))
            (constant (F := Ideal) S_ .f32 0x00000000#32) reducesTo_S8192x512_S8192_d1 h_S_) shapeCasts_S8192_S1x8192 := by
    show StableHlo.after hostOps0 (fun b => m (c, b)) (Proc.devRef .tc main_v7) = _
    after_results
    rfl
  refine (congrFun e (ix2 (0 : Fin 1) k)).trans ?_
  refine (shapeCast_a_1a_apply _ shapeCasts_S8192_S1x8192 (0 : Fin 1) k).trans ?_
  exact hostRowSum_apply _ k

/-- The staged column of group ids is the id argument. -/
theorem V_v8_apply (c : Dev nD) (r : Fin 8192) : V m c main_v8 (ix2 r (0 : Fin 1)) = gm m c r := by
  have e : (V m c main_v8 : S8192x1.Idx → BitVec 32)
      = shapeCast S8192x1 (m ((c : Thread nD τ).loc main_arg2)) shapeCasts_S8192_S8192x1 := by
    show StableHlo.after hostOps0 (fun b => m (c, b)) (Proc.devRef .tc main_v8) = _
    after_results
    rfl
  refine (congrFun e (ix2 r (0 : Fin 1))).trans ?_
  exact shapeCast_apply _ shapeCasts_S8192_S8192x1 (ix2 r (0 : Fin 1)) (ix1 r) (by
    rw [Shape.rowMajor_val_two, Shape.rowMajor_val_one]
    show r.val = r.val * 1 + 0
    omega)

/-- The staged row of group ids is the id argument. -/
theorem V_v9_apply (c : Dev nD) (k : Fin 8192) : V m c main_v9 (ix2 (0 : Fin 1) k) = gm m c k := by
  have e : (V m c main_v9 : S1x8192.Idx → BitVec 32)
      = shapeCast S1x8192 (m ((c : Thread nD τ).loc main_arg2)) shapeCasts_S8192_S1x8192 := by
    show StableHlo.after hostOps0 (fun b => m (c, b)) (Proc.devRef .tc main_v9) = _
    after_results
    rfl
  refine (congrFun e (ix2 (0 : Fin 1) k)).trans ?_
  exact shapeCast_a_1a_apply _ shapeCasts_S8192_S1x8192 (0 : Fin 1) k

/-! ## The windows' block indices over the grid, and the blocks -/

/-- Windows 0, 2 and 4 step with the row block ⌊t/8⌋ along the first axis; windows 1, 3 and 5 with the column block
    t mod 8, the matrices along the first axis and the rows along the second. -/
theorem blockIndex0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem blockIndex1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem blockIndex2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem blockIndex3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem blockIndex4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem blockIndex5 : ∀ t : Fin cfg0.N, win0_5.index t (0 : Fin 2) = 0 ∧ win0_5.index t (1 : Fin 2) = t.val % 8 :=
  (by decide +kernel : ∀ t : Fin grid0.N, win0_5.index t (0 : Fin 2) = 0 ∧ win0_5.index t (1 : Fin 2) = t.val % 8)

/-- Row p of the text block at point t is row p of row block ⌊t/8⌋ of the text array (the cast to bf16 is the identity). -/
theorem tblk_apply (c : Dev nD) (t : Fin cfg0.N) (p : Fin 1024) (d : Fin 512) :
    tblk m c t (ix2 p d) = Tm m c (row (rb t) p) d := by
  have hi := blockIndex0 t
  show iblk m c 0 t (ix2 p d) = _
  unfold iblk
  rw [View.read_apply]
  show V m c main_v0 _ = _
  refine (congrArg (fun i => V m c main_v0 i) ?_).trans (V_v0_apply m c (row (rb t) p) d)
  funext a
  apply Fin.ext
  match a with
  | ⟨0, _⟩ => show win0_0.index t (0 : Fin 2) * 1024 + 1 * p.val = t.val / 8 * 1024 + p.val; rw [hi.1]; omega
  | ⟨1, _⟩ => show win0_0.index t (1 : Fin 2) * 512 + 1 * d.val = d.val; rw [hi.2]; omega

/-- Row q of the image block at point t is row q of column block t mod 8 of the image array. -/
theorem mblk_apply (c : Dev nD) (t : Fin cfg0.N) (q : Fin 1024) (d : Fin 512) :
    mblk m c t (ix2 q d) = Mm m c (col (cb t) q) d := by
  have hi := blockIndex1 t
  show iblk m c 1 t (ix2 q d) = _
  unfold iblk
  rw [View.read_apply]
  show V m c main_v1 _ = _
  refine (congrArg (fun i => V m c main_v1 i) ?_).trans (V_v1_apply m c (col (cb t) q) d)
  funext a
  apply Fin.ext
  match a with
  | ⟨0, _⟩ => show win0_1.index t (0 : Fin 2) * 1024 + 1 * q.val = t.val % 8 * 1024 + q.val; rw [hi.1]; omega
  | ⟨1, _⟩ => show win0_1.index t (1 : Fin 2) * 512 + 1 * d.val = d.val; rw [hi.2]; omega

/-- The text norm block holds the row sums of squares of the text rows of the row block. -/
theorem tnblk_apply (c : Dev nD) (t : Fin cfg0.N) (p : Fin 1024) :
    tnblk m c t (ix2 p (0 : Fin 1)) = rowSq (Tm m c) (row (rb t) p) := by
  have hi := blockIndex2 t
  show iblk m c 2 t (ix2 p (0 : Fin 1)) = _
  unfold iblk
  rw [View.read_apply]
  show V m c main_v4 _ = _
  refine (congrArg (fun i => V m c main_v4 i) ?_).trans (V_v4_apply m c (row (rb t) p))
  funext a
  apply Fin.ext
  match a with
  | ⟨0, _⟩ => show win0_2.index t (0 : Fin 2) * 1024 + 1 * p.val = t.val / 8 * 1024 + p.val; rw [hi.1]; omega
  | ⟨1, _⟩ => show win0_2.index t (1 : Fin 2) * 1 + 1 * 0 = 0; rw [hi.2]

/-- The image norm block holds the row sums of squares of the image rows of the column block. -/
theorem mnblk_apply (c : Dev nD) (t : Fin cfg0.N) (q : Fin 1024) :
    mnblk m c t (ix2 (0 : Fin 1) q) = rowSq (Mm m c) (col (cb t) q) := by
  have hi := blockIndex3 t
  show iblk m c 3 t (ix2 (0 : Fin 1) q) = _
  unfold iblk
  rw [View.read_apply]
  show V m c main_v7 _ = _
  refine (congrArg (fun i => V m c main_v7 i) ?_).trans (V_v7_apply m c (col (cb t) q))
  funext a
  apply Fin.ext
  match a with
  | ⟨0, _⟩ => show win0_3.index t (0 : Fin 2) * 1 + 1 * 0 = 0; rw [hi.1]
  | ⟨1, _⟩ => show win0_3.index t (1 : Fin 2) * 1024 + 1 * q.val = t.val % 8 * 1024 + q.val; rw [hi.2]; omega

/-- The two group-id blocks hold the ids of the row block's rows and of the column block's rows. -/
theorem gcblk_apply (c : Dev nD) (t : Fin cfg0.N) (p : Fin 1024) :
    gcblk m c t (ix2 p (0 : Fin 1)) = gm m c (row (rb t) p) := by
  have hi := blockIndex4 t
  show iblk m c 4 t (ix2 p (0 : Fin 1)) = _
  unfold iblk
  rw [View.read_apply]
  show V m c main_v8 _ = _
  refine (congrArg (fun i => V m c main_v8 i) ?_).trans (V_v8_apply m c (row (rb t) p))
  funext a
  apply Fin.ext
  match a with
  | ⟨0, _⟩ => show win0_4.index t (0 : Fin 2) * 1024 + 1 * p.val = t.val / 8 * 1024 + p.val; rw [hi.1]; omega
  | ⟨1, _⟩ => show win0_4.index t (1 : Fin 2) * 1 + 1 * 0 = 0; rw [hi.2]
theorem grblk_apply (c : Dev nD) (t : Fin cfg0.N) (q : Fin 1024) :
    grblk m c t (ix2 (0 : Fin 1) q) = gm m c (col (cb t) q) := by
  have hi := blockIndex5 t
  show iblk m c 5 t (ix2 (0 : Fin 1) q) = _
  unfold iblk
  rw [View.read_apply]
  show V m c main_v9 _ = _
  refine (congrArg (fun i => V m c main_v9 i) ?_).trans (V_v9_apply m c (col (cb t) q))
  funext a
  apply Fin.ext
  match a with
  | ⟨0, _⟩ => show win0_5.index t (0 : Fin 2) * 1 + 1 * 0 = 0; rw [hi.1]
  | ⟨1, _⟩ => show win0_5.index t (1 : Fin 2) * 1024 + 1 * q.val = t.val % 8 * 1024 + q.val; rw [hi.2]; omega

end Cert.KernelIdeal.HostPre

end
-- ==== Proof.KValue.lean ====
/-
  The kernel's value. At grid point t = 8·a + b the body adds column block b's contribution to the numerator and
  denominator of the 1024 rows of row block a; after the eighth column block the output block holds those rows'
  losses. So the 8192 × 1 result array ends holding every row's loss, and the host lines after the region take its mean.
-/
import proofs.«179976_j4183298146522_1_alg».proof.Proof.KPieces
import proofs.«179976_j4183298146522_1_alg».proof.Proof.KPay
import proofs.«179976_j4183298146522_1_alg».proof.Proof.KHost
import proofs.«179976_j4183298146522_1_alg».proof.Proof.SpecLaws

set_option maxRecDepth 16384

noncomputable section

namespace Cert.KernelIdeal.Value

open Cert.KernelIdeal Cert.KernelIdeal.Gen Cert.KernelIdeal.Names Cert.KernelIdeal.Pieces Cert.KernelIdeal.Pay Cert.KernelIdeal.HostPre
open Idealize.ShloMosaic Idealize.ShloMosaic.TcCoe Idealize.SL.Sem ValueIdx Cert.SimSpec
open Idealize.ShloMosaic.Pipeline (Dat)

variable (m : (ℓ : Loc nD τ sig) → Buf (Elt Ideal) ℓ) (ρ : Dev nD → PrngReg)

/-- The similarity tile of a point, at (p, q): the similarity of row p of the row block and row q of the column block. -/
theorem sim_apply (c : Dev nD) (t : Fin cfg0.N) (p q : Fin 1024) :
    k0_pay7 (F := Ideal) (tblk m c t) (mblk m c t) (tnblk m c t) (mnblk m c t) (ix2 p q)
      = simOf (sqdK (Tm m c) (Mm m c) (row (rb t) p) (col (cb t) q)) := by
  rw [pay7_apply, tnblk_apply, mnblk_apply]
  unfold sqdK
  simp only [tblk_apply, mblk_apply]

/-- The numerator's update at a point: the carried value plus the point's column block's contribution. -/
theorem num_step (c : Dev nD) (t : Fin cfg0.N) (xs : Vec Ideal S1024x1 .f32) (p : Fin 1024) :
    k0_pay2 (F := Ideal) (k0_pay7 (tblk m c t) (mblk m c t) (tnblk m c t) (mnblk m c t)) (k0_pay8 (gcblk m c t)) (grblk m c t) xs
        (ix2 p (0 : Fin 1))
      = xs (ix2 p (0 : Fin 1)) + numPart (Tm m c) (Mm m c) (gm m c) (row (rb t) p) (cb t).val := by
  rw [pay2_apply, pay8_eq, gcblk_apply]
  unfold numPart
  rw [dif_pos (cb t).isLt]
  refine congrArg (_ + ·) (Finset.sum_congr rfl fun q _ => ?_)
  rw [grblk_apply, sim_apply]
  rfl

/-- The denominator's update at a point. -/
theorem den_step (c : Dev nD) (t : Fin cfg0.N) (xs : Vec Ideal S1024x1 .f32) (p : Fin 1024) :
    k0_pay3 (F := Ideal) (k0_pay7 (tblk m c t) (mblk m c t) (tnblk m c t) (mnblk m c t)) (k0_pay8 (gcblk m c t)) (grblk m c t) xs
        (ix2 p (0 : Fin 1))
      = xs (ix2 p (0 : Fin 1)) + denPart (Tm m c) (Mm m c) (gm m c) (row (rb t) p) (cb t).val := by
  rw [pay3_apply, pay8_eq, gcblk_apply]
  unfold denPart
  rw [dif_pos (cb t).isLt]
  refine congrArg (_ + ·) (Finset.sum_congr rfl fun q _ => ?_)
  rw [grblk_apply, sim_apply]
  rfl

/-- At the first column block the accumulators are reset: they leave the point at zero plus the block's contribution. -/
theorem caseA (c : Dev nD) (t : Fin cfg0.N) (h0 : t.val % 8 = 0) (h1 : ¬t.val % 8 = 7) (p : Fin 1024) :
    (outsAt0 m c t.val t.isLt).2.1 (ix2 p (0 : Fin 1)) = zf + numPart (Tm m c) (Mm m c) (gm m c) (row (rb t) p) (cb t).val
    ∧ (outsAt0 m c t.val t.isLt).2.2 (ix2 p (0 : Fin 1)) = zf + denPart (Tm m c) (Mm m c) (gm m c) (row (rb t) p) (cb t).val := by
  rw [outsAt0_A m c t h0 h1]
  dsimp only
  constructor
  · refine (congrFun (sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (tblk m c t) (mblk m c t) (tnblk m c t) (mnblk m c t) (gcblk m c t) (grblk m c t)) (ix2 p (0 : Fin 1))).trans ?_
    rw [num_step, pay5_apply]
  · refine (congrFun (sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (tblk m c t) (mblk m c t) (tnblk m c t) (mnblk m c t) (gcblk m c t) (grblk m c t)) (ix2 p (0 : Fin 1))).trans ?_
    rw [den_step, pay6_apply]

/-- At a middle column block the accumulators leave the point at what the point before left plus the block's contribution. -/
theorem caseB (c : Dev nD) (t : Fin cfg0.N) (h0 : ¬t.val % 8 = 0) (h1 : ¬t.val % 8 = 7) (p : Fin 1024) :
    (outsAt0 m c t.val t.isLt).2.1 (ix2 p (0 : Fin 1))
        = (outsAt0 m c (t.val - 1) (Nat.lt_of_le_of_lt (Nat.sub_le _ _) t.isLt)).2.1 (ix2 p (0 : Fin 1)) + numPart (Tm m c) (Mm m c) (gm m c) (row (rb t) p) (cb t).val
    ∧ (outsAt0 m c t.val t.isLt).2.2 (ix2 p (0 : Fin 1))
        = (outsAt0 m c (t.val - 1) (Nat.lt_of_le_of_lt (Nat.sub_le _ _) t.isLt)).2.2 (ix2 p (0 : Fin 1)) + denPart (Tm m c) (Mm m c) (gm m c) (row (rb t) p) (cb t).val := by
  rw [outsAt0_B m c t h0 h1]
  dsimp only
  constructor
  · refine (congrFun (sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (tblk m c t) (mblk m c t) (tnblk m c t) (mnblk m c t) (gcblk m c t) (grblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    rw [num_step]
  · refine (congrFun (sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (tblk m c t) (mblk m c t) (tnblk m c t) (mnblk m c t) (gcblk m c t) (grblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    rw [den_step]

/-- At the last column block likewise, and the output block is the rows' losses from the two updated accumulators. -/
theorem caseC (c : Dev nD) (t : Fin cfg0.N) (h0 : ¬t.val % 8 = 0) (h1 : t.val % 8 = 7) (p : Fin 1024) :
    (outsAt0 m c t.val t.isLt).2.1 (ix2 p (0 : Fin 1))
        = (outsAt0 m c (t.val - 1) (Nat.lt_of_le_of_lt (Nat.sub_le _ _) t.isLt)).2.1 (ix2 p (0 : Fin 1)) + numPart (Tm m c) (Mm m c) (gm m c) (row (rb t) p) (cb t).val
    ∧ (outsAt0 m c t.val t.isLt).2.2 (ix2 p (0 : Fin 1))
        = (outsAt0 m c (t.val - 1) (Nat.lt_of_le_of_lt (Nat.sub_le _ _) t.isLt)).2.2 (ix2 p (0 : Fin 1)) + denPart (Tm m c) (Mm m c) (gm m c) (row (rb t) p) (cb t).val
    ∧ (outsAt0 m c t.val t.isLt).1 (ix2 p (0 : Fin 1))
        = lossOf ((outsAt0 m c (t.val - 1) (Nat.lt_of_le_of_lt (Nat.sub_le _ _) t.isLt)).2.1 (ix2 p (0 : Fin 1)) + numPart (Tm m c) (Mm m c) (gm m c) (row (rb t) p) (cb t).val)
            ((outsAt0 m c (t.val - 1) (Nat.lt_of_le_of_lt (Nat.sub_le _ _) t.isLt)).2.2 (ix2 p (0 : Fin 1)) + denPart (Tm m c) (Mm m c) (gm m c) (row (rb t) p) (cb t).val) := by
  rw [outsAt0_C m c t h0 h1]
  dsimp only
  refine ⟨?_, ?_, ?_⟩
  · refine (congrFun (sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (tblk m c t) (mblk m c t) (tnblk m c t) (mnblk m c t) (gcblk m c t) (grblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    rw [num_step]
  · refine (congrFun (sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (tblk m c t) (mblk m c t) (tnblk m c t) (mnblk m c t) (gcblk m c t) (grblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    rw [den_step]
  · refine (congrFun (oC6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (tblk m c t) (mblk m c t) (tnblk m c t) (mnblk m c t) (gcblk m c t) (grblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    rw [pay4_apply, num_step, den_step]

/-- THE ACCUMULATION. After point n = 8·a + b the two carried accumulators hold, for each row of row block a, the
    numerator and denominator accumulated over column blocks 0 … b — by induction on the point. -/
theorem acc_inv (c : Dev nD) : ∀ (n : ℕ) (h : n < cfg0.N) (p : Fin 1024),
    (outsAt0 m c n h).2.1 (ix2 p (0 : Fin 1)) = numAcc (Tm m c) (Mm m c) (gm m c) (row (rb ⟨n, h⟩) p) (n % 8 + 1)
    ∧ (outsAt0 m c n h).2.2 (ix2 p (0 : Fin 1)) = denAcc (Tm m c) (Mm m c) (gm m c) (row (rb ⟨n, h⟩) p) (n % 8 + 1)
  | 0, h, p => by
    obtain ⟨e1, e2⟩ := caseA m c ⟨0, h⟩ rfl (show ¬(0 : ℕ) % 8 = 7 by decide) p
    refine ⟨e1.trans ?_, e2.trans ?_⟩
    · rw [show (0 % 8 + 1 : ℕ) = 1 from rfl, numAcc_one]; rfl
    · rw [show (0 % 8 + 1 : ℕ) = 1 from rfl, denAcc_one]; rfl
  | n + 1, h, p => by
    have hN : cfg0.N = 64 := N_0
    by_cases h0 : (n + 1) % 8 = 0
    · have h1 : ¬(n + 1) % 8 = 7 := by omega
      obtain ⟨e1, e2⟩ := caseA m c ⟨n + 1, h⟩ h0 h1 p
      have hc : (cb (⟨n + 1, h⟩ : Fin cfg0.N)).val = 0 := h0
      refine ⟨e1.trans ?_, e2.trans ?_⟩
      · rw [hc, h0, numAcc_one]
      · rw [hc, h0, denAcc_one]
    · obtain ⟨ih1, ih2⟩ := acc_inv c n (Nat.lt_of_succ_lt h) p
      have hr : rb (⟨n, Nat.lt_of_succ_lt h⟩ : Fin cfg0.N) = rb (⟨n + 1, h⟩ : Fin cfg0.N) := Fin.ext (by show n / 8 = (n + 1) / 8; omega)
      have hc : (cb (⟨n + 1, h⟩ : Fin cfg0.N)).val = n % 8 + 1 := by show (n + 1) % 8 = n % 8 + 1; omega
      have hm : (n + 1) % 8 + 1 = (n % 8 + 1) + 1 := by omega
      rw [hr] at ih1 ih2
      have step : ∀ (x y : EReal),
          x = (outsAt0 m c n (Nat.lt_of_succ_lt h)).2.1 (ix2 p (0 : Fin 1)) + numPart (Tm m c) (Mm m c) (gm m c) (row (rb ⟨n + 1, h⟩) p) (cb (⟨n + 1, h⟩ : Fin cfg0.N)).val →
          y = (outsAt0 m c n (Nat.lt_of_succ_lt h)).2.2 (ix2 p (0 : Fin 1)) + denPart (Tm m c) (Mm m c) (gm m c) (row (rb ⟨n + 1, h⟩) p) (cb (⟨n + 1, h⟩ : Fin cfg0.N)).val →
          x = numAcc (Tm m c) (Mm m c) (gm m c) (row (rb ⟨n + 1, h⟩) p) ((n + 1) % 8 + 1)
          ∧ y = denAcc (Tm m c) (Mm m c) (gm m c) (row (rb ⟨n + 1, h⟩) p) ((n + 1) % 8 + 1) := by
        intro x y hx hy
        rw [hx, hy, ih1, ih2, hc, hm]
        exact ⟨(numAcc_succ _ _ _ _ _).symm, (denAcc_succ _ _ _ _ _).symm⟩
      by_cases h1 : (n + 1) % 8 = 7
      · obtain ⟨e1, e2, -⟩ := caseC m c ⟨n + 1, h⟩ h0 h1 p
        exact step _ _ e1 e2
      · obtain ⟨e1, e2⟩ := caseB m c ⟨n + 1, h⟩ h0 h1 p
        exact step _ _ e1 e2

/-- At the last column block of row block a the output block holds the losses of the rows of that row block. -/
theorem out_last (c : Dev nD) (t : Fin cfg0.N) (h7 : t.val % 8 = 7) (p : Fin 1024) :
    (outsAt0 m c t.val t.isLt).1 (ix2 p (0 : Fin 1)) = lossK (Tm m c) (Mm m c) (gm m c) (row (rb t) p) := by
  obtain ⟨e1, e2, e3⟩ := caseC m c t (by omega) h7 p
  obtain ⟨a1, a2⟩ := acc_inv m c t.val t.isLt p
  rw [e3, ← e1, ← e2, a1, a2, h7]
  rfl

/-! ## The result array -/

/-- The result array the region leaves: every row's loss. -/
def lossArr (c : Dev nD) : Buf (Elt Ideal) ((c : Thread nD τ).loc main_v10) :=
  fun i => lossK (Tm m c) (Mm m c) (gm m c) ⟨(i 0).val, (i 0).isLt⟩

/-- The output window's block index at a point: row block ⌊t/8⌋, the one column. -/
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- What a write-back writes (only the points of the last column block write back) is its block of the loss array. -/
theorem flushed_eq (c : Dev nD) (t : Fin cfg0.N) (hf : (cfg0.win 6).flush t = true) :
    (dats m 0 c).flushed 6 t = ((cfg0.win 6).blk t).view.read (Elt Ideal) (lossArr m c) := by
  have h7 : t.val % 8 = 7 := (flush0_6 t).mp hf
  obtain ⟨i0, i1⟩ := idx6 t
  show (cfg0.win 6).cut (grid0.coords t) ((dats m 0 c).after 6 t) = _
  rw [after0_6]
  funext y
  obtain ⟨p, z, rfl⟩ : ∃ (p : Fin 1024) (z : Fin 1), y = ix2 p z := ⟨y 0, y 1, eq_ix2 y⟩
  obtain rfl : z = 0 := Subsingleton.elim _ _
  show (outsAt0 m c t.val t.isLt).1 (ix2 p (0 : Fin 1)) = lossArr m c (((cfg0.win 6).blk t).view.emb (ix2 p (0 : Fin 1)))
  rw [out_last m c t h7 p]
  unfold lossArr
  refine congrArg (lossK (Tm m c) (Mm m c) (gm m c)) (Fin.ext ?_)
  show (rb t).val * 1024 + p.val = win0_6.index t (0 : Fin 2) * 1024 + 1 * p.val
  rw [i0]
  show t.val / 8 * 1024 + p.val = t.val / 8 * 1024 + 1 * p.val
  omega

/-- An index of the result array is in a point's block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v10).slice (win0_6.rect t)).set ↔ _
  rw [View.set_slice_whole, Rect.mem_set_unit]
  exact Iff.rfl

/-- Row r of the result array is written back by the last point of its row block. -/
theorem cover (i : S8192x1.Idx) : ∃ t : Fin cfg0.N, (cfg0.win 6).flush t = true ∧ i ∈ ((cfg0.win 6).blk t).view.set := by
  have hN : cfg0.N = 64 := N_0
  have hi0 : (i 0).val < 8192 := (i 0).isLt
  have hi1 : (i 1).val < 1 := (i 1).isLt
  have ht : (i 0).val / 1024 * 8 + 7 < cfg0.N := by omega
  obtain ⟨e0, e1⟩ := idx6 ⟨(i 0).val / 1024 * 8 + 7, ht⟩
  refine ⟨⟨(i 0).val / 1024 * 8 + 7, ht⟩, (flush0_6 _).mpr (by show ((i 0).val / 1024 * 8 + 7) % 8 = 7; omega), ?_⟩
  rw [mem_blk6]
  intro a
  match a with
  | ⟨0, _⟩ =>
    show win0_6.index ⟨(i 0).val / 1024 * 8 + 7, ht⟩ (0 : Fin 2) * 1024 ≤ (i 0).val ∧ (i 0).val < win0_6.index ⟨(i 0).val / 1024 * 8 + 7, ht⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win0_6.index ⟨(i 0).val / 1024 * 8 + 7, ht⟩ (1 : Fin 2) * 1 ≤ (i 1).val ∧ (i 1).val < win0_6.index ⟨(i 0).val / 1024 * 8 + 7, ht⟩ (1 : Fin 2) * 1 + 1
    rw [e1]
    omega

/-- So the result array ends holding every row's loss. -/
theorem final (c : Dev nD) : (dats m 0 c).arrAt 6 cfg0.N = lossArr m c :=
  (dats m 0 c).arrAt_eq_of_cover 6 (lossArr m c) (flushed_eq m c) cover

/-! ## The host lines after the region -/

/-- The program's result: the total of the result array over the row count. -/
def resultK (c : Dev nD) : Buf (Elt Ideal) ((c : Thread nD τ).loc main_v12) :=
  (Host.divf (F := Ideal) (Host.reduceAdd (F := Ideal) (lossArr m c : FVec Ideal S8192x1 .f32) (constant (F := Ideal) S_ .f32 0x00000000#32) reducesTo_S8192x1_S_d0_1 h_S_)
    (constant (F := Ideal) S_ .f32 0x46000000#32) : FVec Ideal S_ .f32)

theorem tail_eq (c : Dev nD) : Pipeline.afterTail₀ cfgs (dats m) 0 (V0 m) [hostOps1] c main_v12 = resultK m c := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v10)
      = lossArr m c :=
    (Pipeline.withArrays_arr spec0 launch0.win.arr_inj c _ _ 6).trans (final m c)
  rw [e]
  rfl

/-- The run, read: the result at the mean loss, the arguments unchanged. -/
theorem run : θ_run defs (onTc (τ := τ) (main (F := Ideal))) ⟨m, fun _ => 0, ρ⟩ fun r => ∀ c : Dev nD,
      r.2.mem ((c.tc : Thread nD τ).loc main_v12) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The result at its one index: the initial zero plus the total of the rows' losses, over the row count. -/
theorem resultK_apply (c : Dev nD) (i : S_.Idx) :
    resultK m c i = Ideal.div (zf + ∑ r : Fin 8192, lossK (Tm m c) (Mm m c) (gm m c) r) nf := by
  unfold resultK
  show Ideal.div (Host.reduceAdd (F := Ideal) (lossArr m c : FVec Ideal S8192x1 .f32) (constant (F := Ideal) S_ .f32 0x00000000#32) reducesTo_S8192x1_S_d0_1 h_S_ i) nf = _
  refine congrArg (Ideal.div · nf) ?_
  simp only [Host.reduceAdd, Ideal.hostReduceAdd_def]
  rw [Ideal.hostReduceAdd_total reducesTo_S8192x1_S_d0_1 (fun b => b.elim0)]
  refine congrArg (zf + ·) ?_
  exact sum_col _ _ (fun r => rfl)

end Cert.KernelIdeal.Value

end
-- ==== Proof.lean ====
/-
  The certificate of the similarity loss kernel against its jnp reference.

  Both programs compute, for text and image embeddings T, M (8192 × 512) and group ids g, the mean over rows r of
  −log (num r / den r) (guarded), where num r and den r sum exp(−‖T r − M k‖) over the columns k of the same and of
  the other groups, and the distance comes from the expansion ‖T r‖² + ‖M k‖² − 2 ⟨T r, M k⟩ clamped at zero.
  The reference doubles T before the matrix product, the kernel doubles the product: equal when the entries are
  real numbers, which the precondition says. The kernel accumulates num and den over eight column blocks per row
  block and finalises at the last; the reference sums each row whole: equal on all extended reals.
  The three frames are the programs' runs; the ideal pass rewrote nothing, so the idealization claim is trivial.
-/
import proofs.«179976_j4183298146522_1_alg».proof.Defs
import proofs.«179976_j4183298146522_1_alg».proof.Proof.Gen.Kernel
import proofs.«179976_j4183298146522_1_alg».proof.Proof.Gen.Kernel.Frame
import proofs.«179976_j4183298146522_1_alg».proof.Proof.Gen.KernelIdeal
import proofs.«179976_j4183298146522_1_alg».proof.Proof.Gen.KernelIdeal.Frame
import proofs.«179976_j4183298146522_1_alg».proof.Proof.Gen.ReferenceIdeal
import proofs.«179976_j4183298146522_1_alg».proof.Proof.Gen.ReferenceIdeal.Run
import proofs.«179976_j4183298146522_1_alg».proof.Proof.Gen.ReferenceIdeal.Read
import proofs.«179976_j4183298146522_1_alg».proof.Proof.Gen.Pre_finite_inputs
import proofs.«179976_j4183298146522_1_alg».proof.Proof.SpecLaws
import proofs.«179976_j4183298146522_1_alg».proof.Proof.RefValue
import proofs.«179976_j4183298146522_1_alg».proof.Proof.Finite
import proofs.«179976_j4183298146522_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result is the mean of the block-accumulated losses and the reference's the mean
    of the whole-row losses, of arguments that agree and whose float entries are real: one number. -/
theorem algebraic : Cert.algebraic_KernelIdeal_ReferenceIdeal := by
  intro m ρ m' ρ' hpre hagree
  refine ⟨fun c => Cert.KernelIdeal.Value.resultK m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2]
  funext i
  obtain ⟨hT, hM⟩ := Cert.Pre_finite_inputs.Reals.finite_of_pre _ _ _ (hpre c)
  refine (Cert.ReferenceIdeal.RefValue.ref_total _ _ _ i).trans ?_
  refine Eq.trans ?_ (Cert.KernelIdeal.Value.resultK_apply m c i).symm
  unfold Cert.SimSpec.total
  refine congrArg (fun s => Ideal.div (Cert.SimSpec.zf + s) Cert.SimSpec.nf) (Finset.sum_congr rfl fun r _ => ?_)
  exact (Cert.SimSpec.lossK_eq _ _ _ hT hM r).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
